-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S800000 : S_.BroadcastsInDim S800000 (![] : Fin 0 → Fin S800000.rank)
  reducesTo_S800000_S_d0 : S800000.ReducesTo [0] S_

variable [Facts]

def fn_part1 {F : FTy → Type} [FloatOps F] (main_v13 : IVec S_ 1) (main_v16 : IVec S800000 1) : IVec S_ 1 :=
  let main_c_5 : IVec S_ 1 := constantI S_ 1 1#1
  let main_v17 : IVec S_ 1 := (fun x v => Host.reduce IntOp.andi x v reducesTo_S800000_S_d0 h_S_) main_v16 main_c_5
  let main_v18 : IVec S_ 1 := andi main_v13 main_v17
  main_v18

def fn {F : FTy → Type} [FloatOps F] (main_arg0 : FVec F S50000x128 .f32) (main_arg1 : FVec F S128x128 .f32) (main_arg2 : FVec F S128 .f32) (main_arg3 : FVec F S800000 .f32) (main_arg4 : IVec S800000 32) (main_arg5 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S800000 .f32 := Host.absf main_arg3
  let main_cst_4 : FVec F S_ .f32 := constant S_ .f32 0x7F800000#32
  let main_v15 : FVec F S800000 .f32 := broadcastInDim S800000 ![] bcast_S_S800000 main_cst_4
  let main_v16 : IVec S800000 1 := cmpf .olt main_v14 main_v15
  fn_part1 (F := F) main_v13 main_v16
-- ==== Kernel.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S2000x128 : Shape := ⟨2, ![2000, 128]⟩

abbrev nBuf : Space → Nat
  | .hbm => 26
  | .vmem => 5
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S800000, .f32⟩
  | .hbm, ⟨4, _⟩ => ⟨S800000, .i32⟩
  | .hbm, ⟨5, _⟩ => ⟨S800000, .i32⟩
  | .hbm, ⟨6, _⟩ => ⟨S50000x128, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x128, .f32⟩
  | .hbm, ⟨16, _⟩ => ⟨S800000x1, .f32⟩
  | .hbm, ⟨17, _⟩ => ⟨S800000x128, .f32⟩
  | .hbm, ⟨18, _⟩ => ⟨S800000x128, .f32⟩
  | .hbm, ⟨19, _⟩ => ⟨S_, .f32⟩
  | .hbm, ⟨20, _⟩ => ⟨S50000x128, .f32⟩
  | .hbm, ⟨21, _⟩ => ⟨S800000x1, .i32⟩
  | .hbm, ⟨22, _⟩ => ⟨S50000x128, .f32⟩
  | .hbm, ⟨23, _⟩ => ⟨S1x128, .f32⟩
  | .hbm, ⟨24, _⟩ => ⟨S50000x128, .f32⟩
  | .hbm, ⟨25, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_v2 : Ref sig .tc := ⟨.hbm, 9, rfl⟩
abbrev main_call0_c_0 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_cst : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_v15 : Ref sig .tc := ⟨.hbm, 24, rfl⟩
abbrev main_v0 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S800000x1 : Shape := ⟨2, ![800000, 1]⟩
abbrev S_ : Shape := ⟨0, ![]⟩
abbrev S800000x128 : Shape := ⟨2, ![800000, 128]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S800000, .f32⟩
  | .hbm, ⟨4, _⟩ => ⟨S800000, .i32⟩
  | .hbm, ⟨5, _⟩ => ⟨S800000, .i32⟩
  | .hbm, ⟨6, _⟩ => ⟨S50000x128, .f32⟩
  | .hbm, ⟨7, _⟩ => ⟨S800000x1, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x128, .f32⟩
  | .hbm, ⟨17, _⟩ => ⟨S800000x128, .f32⟩
  | .hbm, ⟨18, _⟩ => ⟨S800000x128, .f32⟩
  | .hbm, ⟨19, _⟩ => ⟨S_, .f32⟩
  | .hbm, ⟨20, _⟩ => ⟨S50000x128, .f32⟩
  | .hbm, ⟨21, _⟩ => ⟨S800000x1, .i32⟩
  | .hbm, ⟨22, _⟩ => ⟨S50000x128, .f32⟩
  | .hbm, ⟨23, _⟩ => ⟨S1x128, .f32⟩
  | .hbm, ⟨24, _⟩ => ⟨S50000x128, .f32⟩
  | .hbm, ⟨25, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.Support.lean ====
/-
  The dense projection. The kernel computes `support = embeddings · weight` in 25 row blocks of 2000 rows: at grid
  point `t` it loads rows `2000·t … 2000·t + 1999` of the embeddings and the whole 128 × 128 weight, narrows both to
  bf16 (at the ideal instance a change of format is the identity), multiplies them into a zero accumulator and stores
  the 2000 × 128 product as block `t` of the output. Entry `(r, j)` of that block is `∑ k, x (2000·t + r, k) · w (k, j)`,
  which is entry `(2000·t + r, j)` of the whole product `matProd x w`; the 25 blocks tile the 50000 rows, so after the
  region the output array holds `matProd` of the two argument arrays. No law beyond re-indexing a finite sum is used, so
  nothing here needs the inputs finite.
-/
import proofs.«421906_j5815385719421_3_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Projection

open Cert.KernelIdeal Cert.KernelIdeal.Gen Idealize.ShloMosaic Idealize.ShloMosaic.TcCoe Idealize.SL.Sem
open Idealize.ShloMosaic.ValueIdx
open Idealize.ShloMosaic.Pipeline (Dat Cfg Window)

/-! ## The whole product, entry by entry -/

/-- Entry `(r, k)` of a 50000 × 128 array. -/
abbrev rowAt (r : Fin 50000) (k : Fin 128) : S50000x128.Idx := ix2 r k
/-- Entry `(k, j)` of a 128 × 128 array. -/
abbrev colAt (k : Fin 128) (j : Fin 128) : S128x128.Idx := ix2 k j
/-- Entry `(r, k)` of a 2000 × 128 block. -/
abbrev blkAt (r : Fin 2000) (k : Fin 128) : S2000x128.Idx := ix2 r k

/-- `x · w` over the extended reals: entry `(r, j)` is the sum over `k` of `x (r, k) · w (k, j)`. -/
def matProd (x : (⟨S50000x128, .f32⟩ : BufTy).Contents (Elt Ideal)) (w : (⟨S128x128, .f32⟩ : BufTy).Contents (Elt Ideal)) :
    (⟨S50000x128, .f32⟩ : BufTy).Contents (Elt Ideal) :=
  fun i => ∑ k : Fin 128, x (rowAt ⟨(i 0).val, (i 0).isLt⟩ k) * w (colAt k ⟨(i 1).val, (i 1).isLt⟩)

/-! ## One block's product at an index -/

/-- The block product's left operand is read at the output's row … -/
theorem lhs_row (y : S2000x128.Idx) (q : dot_S2000x128_S128x128_S2000x128_1_0_0_1_n_n.contr.Idx) :
    (dot_S2000x128_S128x128_S2000x128_1_0_0_1_n_n.lhsIdx y q 0).val = (y 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- … and the contracted position, -/
theorem lhs_contr (y : S2000x128.Idx) (q : dot_S2000x128_S128x128_S2000x128_1_0_0_1_n_n.contr.Idx) :
    (dot_S2000x128_S128x128_S2000x128_1_0_0_1_n_n.lhsIdx y q 1).val = (q ⟨0, by decide⟩).val :=
  dot_S2000x128_S128x128_S2000x128_1_0_0_1_n_n.lhsIdx_val_of_single rfl y q
/-- the right operand at the contracted position … -/
theorem rhs_contr (y : S2000x128.Idx) (q : dot_S2000x128_S128x128_S2000x128_1_0_0_1_n_n.contr.Idx) :
    (dot_S2000x128_S128x128_S2000x128_1_0_0_1_n_n.rhsIdx y q 0).val = (q ⟨0, by decide⟩).val :=
  dot_S2000x128_S128x128_S2000x128_1_0_0_1_n_n.rhsIdx_val_of_single rfl y q
/-- … and the output's column. -/
theorem rhs_col (y : S2000x128.Idx) (q : dot_S2000x128_S128x128_S2000x128_1_0_0_1_n_n.contr.Idx) :
    (dot_S2000x128_S128x128_S2000x128_1_0_0_1_n_n.rhsIdx y q 1).val = (y 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- What the body stores, at entry `y` of the block: the narrowing to bf16 is the identity on extended reals and the
    accumulator is zero, so it is the plain sum over the 128 contracted positions. -/
theorem pay_apply (x0 : Vec Ideal S2000x128 .f32) (x1 : Vec Ideal S128x128 .f32) (y : S2000x128.Idx) :
    k0_pay1 (F := Ideal) x0 x1 y
      = ∑ k : Fin 128, x0 (blkAt ⟨(y 0).val, (y 0).isLt⟩ k) * x1 (colAt k ⟨(y 1).val, (y 1).isLt⟩) := by
  unfold k0_pay1
  refine (Ideal.matmul_constant_zero_apply dot_S2000x128_S128x128_S2000x128_1_0_0_1_n_n none _ _ y).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx y ((contrEquiv1 dot_S2000x128_S128x128_S2000x128_1_0_0_1_n_n 128 rfl rfl).symm k) = blkAt ⟨(y 0).val, (y 0).isLt⟩ k := funext fun a => Fin.ext (by
    match a with
    | ⟨0, _⟩ => exact lhs_row _ _
    | ⟨1, _⟩ => exact (lhs_contr _ _).trans hk)
  have er : dot_S2000x128_S128x128_S2000x128_1_0_0_1_n_n.rhsIdx y ((contrEquiv1 dot_S2000x128_S128x128_S2000x128_1_0_0_1_n_n 128 rfl rfl).symm k) = colAt k ⟨(y 1).val, (y 1).isLt⟩ := funext fun a => Fin.ext (by
    match a with
    | ⟨0, _⟩ => exact (rhs_contr _ _).trans hk
    | ⟨1, _⟩ => exact rhs_col _ _)
  rw [el, er]
  rfl

/-- A block whose rows are rows `i 0` of `X` and whose weight is `W` stores, at `y`, entry `i` of `matProd X W`. -/
theorem pay_eq_matProd (X : (⟨S50000x128, .f32⟩ : BufTy).Contents (Elt Ideal)) (W : (⟨S128x128, .f32⟩ : BufTy).Contents (Elt Ideal))
    (x0 : Vec Ideal S2000x128 .f32) (x1 : Vec Ideal S128x128 .f32) (y : S2000x128.Idx) (i : S50000x128.Idx)
    (h0 : ∀ k : Fin 128, x0 (blkAt ⟨(y 0).val, (y 0).isLt⟩ k) = X (rowAt ⟨(i 0).val, (i 0).isLt⟩ k))
    (h1 : ∀ k : Fin 128, x1 (colAt k ⟨(y 1).val, (y 1).isLt⟩) = W (colAt k ⟨(i 1).val, (i 1).isLt⟩)) :
    k0_pay1 (F := Ideal) x0 x1 y = matProd X W i := by
  rw [pay_apply]
  exact Finset.sum_congr rfl fun k _ => by rw [h0 k, h1 k]

/-! ## From the blocks to the array -/

variable (m : (ℓ : Loc nD τ sig) → Buf (Elt Ideal) ℓ)

theorem origin : (![0, 0] : Fin 2 → Nat) = fun _ => 0 := funext fun a => by fin_cases a <;> rfl

/-- The three index maps over the 25 grid points: the embeddings' window and the output's are at row block `t`,
    column block 0; the weight's is always at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product of the two argument arrays as the region finds
    them: row `r` of the loaded block is row `2000·t + r` of the embeddings, and the loaded weight is the weight. -/
theorem flushed_eq (c : Dev nD) (t : Fin cfg0.N) :
    (dats m 0 c).flushed 2 t = ((cfg0.win 2).blk t).view.read (Elt Ideal) (matProd (V m c main_arg0) (V m c main_arg1)) := by
  show (cfg0.win 2).cut (grid0.coords t) ((dats m 0 c).after 2 t) = _
  rw [after0_2]
  unfold out0_2
  rw [View.canon_unit_zero origin]
  simp only [View.ld_unit_zero (S := S2000x128) origin, View.ld_unit_zero (S := S128x128) origin]
  obtain ⟨e0, e1, e2, e3, e4, e5⟩ := idx_facts t
  funext y
  show k0_pay1 (F := Ideal) (iblk m c 0 t) (iblk m c 1 t) y = matProd (V m c main_arg0) (V m c main_arg1) (((cfg0.win 2).blk t).view.emb y)
  refine pay_eq_matProd (V m c main_arg0) (V m c main_arg1) (iblk m c 0 t) (iblk m c 1 t) y (((cfg0.win 2).blk t).view.emb y) ?_ ?_
  · intro k
    show V m c main_arg0 (((cfg0.win 0).blk t).view.emb (blkAt ⟨(y 0).val, (y 0).isLt⟩ k)) = V m c main_arg0 _
    refine congrArg _ (funext fun a => Fin.ext ?_)
    match a with
    | ⟨0, _⟩ => show win0_0.index t (0 : Fin 2) * 2000 + 1 * (y 0).val = win0_2.index t (0 : Fin 2) * 2000 + 1 * (y 0).val; omega
    | ⟨1, _⟩ => show win0_0.index t (1 : Fin 2) * 128 + 1 * k.val = k.val; omega
  · intro k
    show V m c main_arg1 (((cfg0.win 1).blk t).view.emb (colAt k ⟨(y 1).val, (y 1).isLt⟩)) = V m c main_arg1 _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * (y 1).val = win0_2.index t (1 : Fin 2) * 128 + 1 * (y 1).val; omega

/-- An index of the output array is in point `t`'s block iff each coordinate is in the block's range on its axis. -/
theorem mem_blk (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_call0_v0).slice (win0_2.rect t)).set ↔ _
  rw [View.set_slice_whole, Rect.mem_set_unit]
  exact Iff.rfl

/-- The 25 blocks of 2000 rows tile the 50000 rows: row `r` is in the block of point `r / 2000`. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  have hlt : (i 0).val / 2000 < cfg0.N := by omega
  obtain ⟨e0, e1, e2, e3, e4, e5⟩ := idx_facts ⟨(i 0).val / 2000, hlt⟩
  have q0 : win0_2.index ⟨(i 0).val / 2000, hlt⟩ (0 : Fin 2) = (i 0).val / 2000 := e4
  refine ⟨⟨(i 0).val / 2000, hlt⟩, flush0_2 _, ?_⟩
  rw [mem_blk]
  intro a
  match a with
  | ⟨0, _⟩ => show win0_2.index ⟨(i 0).val / 2000, hlt⟩ (0 : Fin 2) * 2000 ≤ (i 0).val ∧ (i 0).val < win0_2.index ⟨(i 0).val / 2000, hlt⟩ (0 : Fin 2) * 2000 + 2000; omega
  | ⟨1, _⟩ => show win0_2.index ⟨(i 0).val / 2000, hlt⟩ (1 : Fin 2) * 128 ≤ (i 1).val ∧ (i 1).val < win0_2.index ⟨(i 0).val / 2000, hlt⟩ (1 : Fin 2) * 128 + 128; omega

/-- After the region the output array holds the whole product of the embeddings and the weight. -/
theorem final (c : Dev nD) :
    (dats m 0 c).arrAt 2 cfg0.N = matProd (m ((c : Thread nD τ).loc main_arg0)) (m ((c : Thread nD τ).loc main_arg1)) :=
  (dats m 0 c).arrAt_eq_of_cover 2 (matProd (V m c main_arg0) (V m c main_arg1)) (fun t _ => flushed_eq m c t) cover

end Cert.KernelIdeal.Projection

end
-- ==== Proof.Tail.lean ====
/-
  The sparse aggregation that follows the projection. Both programs apply the same nineteen host operations to the
  projected features `support` : f32[50000, 128]:

    out[r, :] = bias + ∑ over edges e with edge_row[e] = r of  edge_val[e] · support[edge_col[e], :]

  — a negative `edge_col[e]` first wrapped by 50000, the rows gathered, scaled by the edge's value, scatter-added into
  a zero array at `edge_row[e]`, and the bias added to every row. `aggregate` names that stretch as ONE function of
  `support` and the four other arguments. Nothing in the certificate opens it: the two programs differ only in how
  `support` is computed, and equal arguments give equal values.
-/
import proofs.«421906_j5815385719421_3_alg».proof.KernelIdeal

noncomputable section

namespace Cert.KernelIdeal.Aggregation

open Cert.KernelIdeal Idealize.ShloMosaic Idealize.SL.Sem

variable {F : FTy → Type} [FloatOps F] [Facts]
open Facts₀ Facts

/-- The gather of rows `edge_col` of `support`, scaled by `edge_val`, summed into rows `edge_row`, plus `bias`. -/
def aggregate (support : (⟨S50000x128, .f32⟩ : BufTy).Contents (Elt F)) (bias : (⟨S128, .f32⟩ : BufTy).Contents (Elt F))
    (edge_val : (⟨S800000, .f32⟩ : BufTy).Contents (Elt F)) (edge_row : (⟨S800000, .i32⟩ : BufTy).Contents (Elt F))
    (edge_col : (⟨S800000, .i32⟩ : BufTy).Contents (Elt F)) : (⟨S50000x128, .f32⟩ : BufTy).Contents (Elt F) :=
  addf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 edge_row)
      (mulf
        (broadcastInDim S800000x128 ![0, 1] bcast_S800000x1_S800000x128_0_1 (broadcastInDim S800000x1 ![0] bcast_S800000_S800000x1_0 edge_val))
        (Host.gather gather_S50000x128_S800000x1_S800000x128_1_0_n_n_0_1_1128 support
          (broadcastInDim S800000x1 ![0] bcast_S800000_S800000x1_0
            (select (cmpi .slt edge_col (broadcastInDim S800000 ![] bcast_S_S800000 (constantI S_ 32 0#32)))
              (addi edge_col (broadcastInDim S800000 ![] bcast_S_S800000 (constantI S_ 32 50000#32))) edge_col)))))
    (broadcastInDim S50000x128 ![0, 1] bcast_S1x128_S50000x128_0_1 (broadcastInDim S1x128 ![1] bcast_S128_S1x128_1 bias))

end Cert.KernelIdeal.Aggregation

end
-- ==== Proof.KernelRun.lean ====
/-
  The kernel's whole run, read. After the region the output array holds `matProd embeddings weight` (the 25 row
  blocks tile it); the nineteen host operations that follow read that array, the bias, the edge values and the two
  index arrays — none of which the region or an earlier line of the stretch writes — and leave
  `aggregate (matProd embeddings weight) bias edge_val edge_row edge_col` in the result.
-/
import proofs.«421906_j5815385719421_3_alg».proof.Proof.Gen.KernelIdeal.Frame
import proofs.«421906_j5815385719421_3_alg».proof.Proof.Support
import proofs.«421906_j5815385719421_3_alg».proof.Proof.Tail
import Idealize.ShloMosaic.Lib.StableHlo.Run

set_option maxRecDepth 16384

noncomputable section

namespace Cert.KernelIdeal.Forward

open Cert.KernelIdeal Cert.KernelIdeal.Gen Idealize.ShloMosaic Idealize.ShloMosaic.TcCoe Idealize.SL.Sem Idealize.ShloMosaic.StableHlo
open Cert.KernelIdeal.Projection Cert.KernelIdeal.Aggregation

section Stretch

variable {F : FTy → Type} [FloatOps F]

/-- The nineteen host operations that follow the region, each over the buffers it reads and writes: the wrap of a
    negative `edge_col` by 50000, the gather of the projection's rows, the product with the broadcast edge values,
    the scatter-add into a zero array at `edge_row`, and the sum with the broadcast bias. -/
abbrev tailOps : List (HloOp τ sig (Elt F)) :=
  [ nullary main_call0_c (constantI S_ 32 0#32),
    unary main_call0_c main_call0_v1 (broadcastInDim S800000 ![] bcast_S_S800000 : (⟨S_, .i32⟩ : BufTy).Contents (Elt F) → (⟨S800000, .i32⟩ : BufTy).Contents (Elt F)),
    binary main_arg5 main_call0_v1 main_call0_v2 (cmpi .slt : (⟨S800000, .i32⟩ : BufTy).Contents (Elt F) → (⟨S800000, .i32⟩ : BufTy).Contents (Elt F) → (⟨S800000, .i1⟩ : BufTy).Contents (Elt F)),
    nullary main_call0_c_0 (constantI S_ 32 50000#32),
    unary main_call0_c_0 main_call0_v3 (broadcastInDim S800000 ![] bcast_S_S800000 : (⟨S_, .i32⟩ : BufTy).Contents (Elt F) → (⟨S800000, .i32⟩ : BufTy).Contents (Elt F)),
    binary main_arg5 main_call0_v3 main_call0_v4 (addi : (⟨S800000, .i32⟩ : BufTy).Contents (Elt F) → (⟨S800000, .i32⟩ : BufTy).Contents (Elt F) → (⟨S800000, .i32⟩ : BufTy).Contents (Elt F)),
    ternary main_call0_v2 main_call0_v4 main_arg5 main_call0_v5 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_call0_v5 main_call0_v6 (broadcastInDim S800000x1 ![0] bcast_S800000_S800000x1_0 : (⟨S800000, .i32⟩ : BufTy).Contents (Elt F) → (⟨S800000x1, .i32⟩ : BufTy).Contents (Elt F)),
    binary main_call0_v0 main_call0_v6 main_call0_v7 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_arg3 main_call0_v8 (broadcastInDim S800000x1 ![0] bcast_S800000_S800000x1_0 : (⟨S800000, .f32⟩ : BufTy).Contents (Elt F) → (⟨S800000x1, .f32⟩ : BufTy).Contents (Elt F)),
    unary main_call0_v8 main_call0_v9 (broadcastInDim S800000x128 ![0, 1] bcast_S800000x1_S800000x128_0_1 : (⟨S800000x1, .f32⟩ : BufTy).Contents (Elt F) → (⟨S800000x128, .f32⟩ : BufTy).Contents (Elt F)),
    binary main_call0_v9 main_call0_v7 main_call0_v10 (mulf : (⟨S800000x128, .f32⟩ : BufTy).Contents (Elt F) → (⟨S800000x128, .f32⟩ : BufTy).Contents (Elt F) → (⟨S800000x128, .f32⟩ : BufTy).Contents (Elt F)),
    nullary main_call0_cst (constant S_ .f32 0x00000000#32),
    unary main_call0_cst main_call0_v11 (broadcastInDim S50000x128 ![] bcast_S_S50000x128 : (⟨S_, .f32⟩ : BufTy).Contents (Elt F) → (⟨S50000x128, .f32⟩ : BufTy).Contents (Elt F)),
    unary main_arg4 main_call0_v12 (broadcastInDim S800000x1 ![0] bcast_S800000_S800000x1_0 : (⟨S800000, .i32⟩ : BufTy).Contents (Elt F) → (⟨S800000x1, .i32⟩ : BufTy).Contents (Elt F)),
    ternary main_call0_v11 main_call0_v12 main_call0_v10 main_call0_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_arg2 main_call0_v14 (broadcastInDim S1x128 ![1] bcast_S128_S1x128_1 : (⟨S128, .f32⟩ : BufTy).Contents (Elt F) → (⟨S1x128, .f32⟩ : BufTy).Contents (Elt F)),
    unary main_call0_v14 main_call0_v15 (broadcastInDim S50000x128 ![0, 1] bcast_S1x128_S50000x128_0_1 : (⟨S1x128, .f32⟩ : BufTy).Contents (Elt F) → (⟨S50000x128, .f32⟩ : BufTy).Contents (Elt F)),
    binary main_call0_v13 main_call0_v15 main_v0 (addf : (⟨S50000x128, .f32⟩ : BufTy).Contents (Elt F) → (⟨S50000x128, .f32⟩ : BufTy).Contents (Elt F) → (⟨S50000x128, .f32⟩ : BufTy).Contents (Elt F)) ]

/-- The printed stretch is this list: each printed line carries its values through its buffers' own types, and those
    are the values' types. -/
theorem hostOps1_eq : hostOps1 (F := F) = tailOps := rfl

set_option maxHeartbeats 2000000 in
/-- The stretch from ANY contents of the buffers: its last value is `aggregate` of what the projection's buffer, the
    bias, the edge values and the two index arrays hold when it starts (every other buffer it reads it has written
    itself, earlier in the stretch). -/
theorem tailOps_after (Vv : Valuation τ sig (Elt F)) :
    StableHlo.after (tailOps (F := F)) Vv (Proc.devRef .tc main_v0)
      = aggregate (F := F) (Vv (Proc.devRef .tc main_call0_v0)) (Vv (Proc.devRef .tc main_arg2)) (Vv (Proc.devRef .tc main_arg3))
          (Vv (Proc.devRef .tc main_arg4)) (Vv (Proc.devRef .tc main_arg5)) := by
  after_results
  rfl

/-- The same of the printed stretch. -/
theorem tail_after (Vv : Valuation τ sig (Elt F)) :
    StableHlo.after (hostOps1 (F := F)) Vv (Proc.devRef .tc main_v0)
      = aggregate (F := F) (Vv (Proc.devRef .tc main_call0_v0)) (Vv (Proc.devRef .tc main_arg2)) (Vv (Proc.devRef .tc main_arg3))
          (Vv (Proc.devRef .tc main_arg4)) (Vv (Proc.devRef .tc main_arg5)) := by
  rw [hostOps1_eq]
  exact tailOps_after Vv

end Stretch

variable (m : (ℓ : Loc nD τ sig) → Buf (Elt Ideal) ℓ) (ρ : Dev nD → PrngReg)

/-- At the region's exit the projection's buffer is the pipeline's output array after all 25 write-backs, and the
    other four are no array of the pipeline: they hold what they held at launch. -/
theorem tail_eq (c : Dev nD) :
    Pipeline.afterTail₀ cfgs (dats m) 0 (V0 m) [hostOps1] c main_v0
      = aggregate (F := Ideal) ((dats m 0 c).arrAt 2 cfg0.N) (m ((c : Thread nD τ).loc main_arg2)) (m ((c : Thread nD τ).loc main_arg3))
          (m ((c : Thread nD τ).loc main_arg4)) (m ((c : Thread nD τ).loc main_arg5)) := by
  unfold Pipeline.afterTail₀
  show StableHlo.after (hostOps1 (F := Ideal)) _ (Proc.devRef .tc main_v0) = _
  have e0 : Pipeline.withArrays (cfgs 0).spec c (V0 m c) (fun w => (dats m 0 c).arrAt w (cfgs 0).N) (Proc.devRef .tc main_call0_v0)
      = (dats m 0 c).arrAt 2 cfg0.N := Pipeline.withArrays_arr spec0 launch0.win.arr_inj c _ _ 2
  have e2 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans (V_main_arg2 m c)
  have e3 : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans (V_main_arg3 m c)
  have e4 : Pipeline.withArrays (cfgs 0).spec c (V0 m c) (fun w => (dats m 0 c).arrAt w (cfgs 0).N) (Proc.devRef .tc main_arg4)
      = m ((c : Thread nD τ).loc main_arg4) :=
    (Pipeline.withArrays_of_ne _ c (V0 m c) _ main_arg4 (by exact (by decide : ∀ w, Pipeline.arrRef spec0 w ≠ main_arg4))).trans (V_main_arg4 m c)
  have e5 : Pipeline.withArrays (cfgs 0).spec c (V0 m c) (fun w => (dats m 0 c).arrAt w (cfgs 0).N) (Proc.devRef .tc main_arg5)
      = m ((c : Thread nD τ).loc main_arg5) :=
    (Pipeline.withArrays_of_ne _ c (V0 m c) _ main_arg5 (by exact (by decide : ∀ w, Pipeline.arrRef spec0 w ≠ main_arg5))).trans (V_main_arg5 m c)
  rw [tail_after, e0, e2, e3, e4, e5]

/-- Every weakly fair execution of the kernel's program terminates, nothing faulting, with the result at
    `aggregate (matProd embeddings weight) bias edge_val edge_row edge_col` of the launch contents and the six
    arguments unchanged. -/
theorem run : θ_run defs (onTc (τ := τ) (main (F := Ideal))) ⟨m, fun _ => 0, ρ⟩ (fun r => ∀ c : Dev nD,
      r.2.mem ((c.tc : Thread nD τ).loc main_v0)
        = aggregate (F := Ideal) (matProd (m ((c.tc : Thread nD τ).loc main_arg0)) (m ((c.tc : Thread nD τ).loc main_arg1)))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(((h c).2 main_v0 (Pipeline.mem_restRefs_of main_v0 (by decide) (by decide))).trans (tail_eq m c)).trans
        (congrArg (fun s => aggregate (F := Ideal) s (m ((c.tc : Thread nD τ).loc main_arg2)) (m ((c.tc : Thread nD τ).loc main_arg3))
          (m ((c.tc : Thread nD τ).loc main_arg4)) (m ((c.tc : Thread nD τ).loc main_arg5))) (final m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Forward

end
-- ==== Proof.Reference.lean ====
/-
  The reference's projection. The reference computes `support` by ONE `dot_general` of the whole 50000 × 128
  embeddings with the 128 × 128 weight, contracting the embeddings' columns against the weight's rows. Over the
  extended reals its entry `(r, j)` is the sum over `k` of `x (r, k) · w (k, j)` — the same sum, position by position,
  that the kernel's row blocks store (`matProd`).
-/
import proofs.«421906_j5815385719421_3_alg».proof.Proof.Gen.ReferenceIdeal.Read
import proofs.«421906_j5815385719421_3_alg».proof.Proof.Support

noncomputable section

namespace Cert.ReferenceIdeal.RefValue

open Cert.ReferenceIdeal Cert.ReferenceIdeal.Gen Idealize.ShloMosaic Idealize.SL.Sem
open Cert.KernelIdeal.Projection (matProd rowAt colAt)

/-- The left operand's position for output entry `i` and contracted position `k`: row `i 0`, column `k`. -/
theorem lidx_eq (i : S50000x128.Idx) (k : Fin 128) : Read.lidx_main_v0 i k = rowAt ⟨(i 0).val, (i 0).isLt⟩ k :=
  funext fun a => by match a with | ⟨0, _⟩ => rfl | ⟨1, _⟩ => rfl
/-- The right operand's: row `k`, column `i 1`. -/
theorem ridx_eq (i : S50000x128.Idx) (k : Fin 128) : Read.ridx_main_v0 i k = colAt k ⟨(i 1).val, (i 1).isLt⟩ :=
  funext fun a => by match a with | ⟨0, _⟩ => rfl | ⟨1, _⟩ => rfl

/-- The host's whole product is `matProd`. -/
theorem dot_eq (x0 : (⟨S50000x128, .f32⟩ : BufTy).Contents (Elt Ideal)) (x1 : (⟨S128x128, .f32⟩ : BufTy).Contents (Elt Ideal)) :
    Host.dotGeneral (F := Ideal) (φ₁ := .f32) (φ₂ := .f32) dot_S50000x128_S128x128_S50000x128_1_0_0_1_n_n none x0 x1 = matProd x0 x1 := by
  funext i
  refine (Read.val_main_v0_apply x0 x1 i).trans ?_
  exact Finset.sum_congr rfl fun k _ => by rw [lidx_eq, ridx_eq]

end Cert.ReferenceIdeal.RefValue

end
-- ==== Proof.lean ====
/-
  GraphConvolution: `out = segment_sum(edge_val[:, None] · support[edge_col], edge_row) + bias` with
  `support = embeddings · weight`, for 50000 nodes, 800000 edges and 128 features.

  The kernel computes `support` in a 25-point pipeline, one block of 2000 rows per point — each point loads its rows
  of the embeddings and the whole weight, narrows both to bf16 and multiplies them into a zero accumulator — and the
  reference by one whole `dot_general`. Over the extended reals a change of float format is the identity, so entry
  `(r, j)` of either is the same sum over `k` of `embeddings (r, k) · weight (k, j)` (`matProd`: Proof/Support.lean for
  the kernel's blocks and their cover of the array, Proof/Reference.lean for the host's product). What follows the
  projection is, in both programs, the same stretch of host operations on `support`, the bias, the edge values and the
  two index arrays (`aggregate`, Proof/Tail.lean), which is never opened: equal `support` gives equal results. No
  step uses distributivity or cancellation, so the finiteness of the inputs is not used.

  The kernel's and its idealization's frames are the generated class-A frames; the reference's is its generated run
  with the result dropped; the ideal pass rewrote nothing, so `preserves` is `True`.
-/
import proofs.«421906_j5815385719421_3_alg».proof.Defs
import proofs.«421906_j5815385719421_3_alg».proof.Proof.Gen.Kernel
import proofs.«421906_j5815385719421_3_alg».proof.Proof.Gen.Kernel.Skeleton
import proofs.«421906_j5815385719421_3_alg».proof.Proof.Gen.Kernel.Launch
import proofs.«421906_j5815385719421_3_alg».proof.Proof.Gen.Kernel.Points
import proofs.«421906_j5815385719421_3_alg».proof.Proof.Gen.Kernel.Frame
import proofs.«421906_j5815385719421_3_alg».proof.Proof.Gen.KernelIdeal
import proofs.«421906_j5815385719421_3_alg».proof.Proof.Gen.KernelIdeal.Skeleton
import proofs.«421906_j5815385719421_3_alg».proof.Proof.Gen.KernelIdeal.Launch
import proofs.«421906_j5815385719421_3_alg».proof.Proof.Gen.KernelIdeal.Points
import proofs.«421906_j5815385719421_3_alg».proof.Proof.Gen.KernelIdeal.Frame
import proofs.«421906_j5815385719421_3_alg».proof.Proof.Gen.ReferenceIdeal
import proofs.«421906_j5815385719421_3_alg».proof.Proof.Gen.Pre_finite_inputs
import proofs.«421906_j5815385719421_3_alg».proof.Proof.Gen.ReferenceIdeal.Run
import proofs.«421906_j5815385719421_3_alg».proof.Proof.Gen.ReferenceIdeal.Read
import proofs.«421906_j5815385719421_3_alg».proof.Proof.Support
import proofs.«421906_j5815385719421_3_alg».proof.Proof.Tail
import proofs.«421906_j5815385719421_3_alg».proof.Proof.KernelRun
import proofs.«421906_j5815385719421_3_alg».proof.Proof.Reference
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with `aggregate (matProd embeddings weight) bias edge_val edge_row edge_col` of arguments that
    agree: the kernel by its run read back, the reference because its whole product is `matProd` and the rest of its
    term is `aggregate`'s own text. -/
theorem algebraic : Cert.algebraic_KernelIdeal_ReferenceIdeal := by
  intro m ρ m' ρ' _ hagree
  refine ⟨_, Cert.KernelIdeal.Forward.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [a0, a1, a2, a3, a4, a5, ← Cert.ReferenceIdeal.RefValue.dot_eq]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
